-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x15x3 : Shape := ⟨3, ![500000, 15, 3]⟩
abbrev S_ : Shape := ⟨0, ![]⟩

class Facts : Prop where
  bcast_S_S500000x15x3 : S_.BroadcastsInDim S500000x15x3 (![] : Fin 0 → Fin S500000x15x3.rank)
  reducesTo_S500000x15x3_S_d0_1_2 : S500000x15x3.ReducesTo [0, 1, 2] S_
  h_S_ : 0 < S_.numel

variable [Facts]

def fn {F : FTy → Type} [FloatOps F] (main_arg0 : FVec F S500000x15x3 .f32) : IVec S_ 1 :=
  let main_v0 : FVec F S500000x15x3 .f32 := Host.absf main_arg0
  let main_cst : FVec F S_ .f32 := constant S_ .f32 0x7F800000#32
  let main_v1 : FVec F S500000x15x3 .f32 := broadcastInDim S500000x15x3 ![] bcast_S_S500000x15x3 main_cst
  let main_v2 : IVec S500000x15x3 1 := cmpf .olt main_v0 main_v1
  let main_c : IVec S_ 1 := constantI S_ 1 1#1
  let main_v3 : IVec S_ 1 := (fun x v => Host.reduce IntOp.andi x v reducesTo_S500000x15x3_S_d0_1_2 h_S_) main_v2 main_c
  main_v3
-- ==== Kernel.lean ====
abbrev S500000x15x3 : Shape := ⟨3, ![500000, 15, 3]⟩
abbrev S500000x45 : Shape := ⟨2, ![500000, 45]⟩
abbrev S500000x15 : Shape := ⟨2, ![500000, 15]⟩
abbrev S5000x45 : Shape := ⟨2, ![5000, 45]⟩
abbrev S5000x15 : Shape := ⟨2, ![5000, 15]⟩
abbrev S5000x3 : Shape := ⟨2, ![5000, 3]⟩
abbrev S5000 : Shape := ⟨1, ![5000]⟩
abbrev S5000x1 : Shape := ⟨2, ![5000, 1]⟩
abbrev S500000x15x1 : Shape := ⟨3, ![500000, 15, 1]⟩

abbrev nBuf : Space → Nat
  | .hbm => 4
  | .vmem => 4
  | .smem => 0
  | _ => 0

abbrev bufTy : (tb : Table) → Fin (tcTables nBuf tb) → BufTy
  | .hbm, ⟨0, _⟩ => ⟨S500000x15x3, .f32⟩
  | .hbm, ⟨1, _⟩ => ⟨S500000x45, .f32⟩
  | .hbm, ⟨2, _⟩ => ⟨S500000x15, .f32⟩
  | .hbm, ⟨3, _⟩ => ⟨S500000x15x1, .f32⟩
  | .local _ .vmem, ⟨0, _⟩ => ⟨S5000x45, .f32⟩
  | .local _ .vmem, ⟨1, _⟩ => ⟨S5000x45, .f32⟩
  | .local _ .vmem, ⟨2, _⟩ => ⟨S5000x15, .f32⟩
  | .local _ .vmem, ⟨3, _⟩ => ⟨S5000x15, .f32⟩
  | _, _ => ⟨S500000x15x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x45 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S500000x15x3_S500000x45 : S500000x15x3.ShapeCasts S500000x45
  inb_S5000x45_S5000x3_0_0 : ∀ a, (![0, 0] : Fin 2 → Nat) a + S5000x3.size a ≤ S5000x45.size a
  h_S5000x3 : 0 < S5000x3.numel
  shapeCasts_S5000x3_S5000x3 : S5000x3.ShapeCasts S5000x3
  reduces_S5000x3_S5000 : S5000x3.Reduces [1] S5000
  shapeCasts_S5000_S5000x1 : S5000.ShapeCasts S5000x1
  inb_S5000x15_S5000x1_0_0 : ∀ a, (![0, 0] : Fin 2 → Nat) a + S5000x1.size a ≤ S5000x15.size a
  h_S5000x1 : 0 < S5000x1.numel
  inb_S5000x45_S5000x3_0_3 : ∀ a, (![0, 3] : Fin 2 → Nat) a + S5000x3.size a ≤ S5000x45.size a
  inb_S5000x15_S5000x1_0_1 : ∀ a, (![0, 1] : Fin 2 → Nat) a + S5000x1.size a ≤ S5000x15.size a
  inb_S5000x45_S5000x3_0_6 : ∀ a, (![0, 6] : Fin 2 → Nat) a + S5000x3.size a ≤ S5000x45.size a
  inb_S5000x15_S5000x1_0_2 : ∀ a, (![0, 2] : Fin 2 → Nat) a + S5000x1.size a ≤ S5000x15.size a
  inb_S5000x45_S5000x3_0_9 : ∀ a, (![0, 9] : Fin 2 → Nat) a + S5000x3.size a ≤ S5000x45.size a
  inb_S5000x15_S5000x1_0_3 : ∀ a, (![0, 3] : Fin 2 → Nat) a + S5000x1.size a ≤ S5000x15.size a
  inb_S5000x45_S5000x3_0_12 : ∀ a, (![0, 12] : Fin 2 → Nat) a + S5000x3.size a ≤ S5000x45.size a
  inb_S5000x15_S5000x1_0_4 : ∀ a, (![0, 4] : Fin 2 → Nat) a + S5000x1.size a ≤ S5000x15.size a
  inb_S5000x45_S5000x3_0_15 : ∀ a, (![0, 15] : Fin 2 → Nat) a + S5000x3.size a ≤ S5000x45.size a
  inb_S5000x15_S5000x1_0_5 : ∀ a, (![0, 5] : Fin 2 → Nat) a + S5000x1.size a ≤ S5000x15.size a
  inb_S5000x45_S5000x3_0_18 : ∀ a, (![0, 18] : Fin 2 → Nat) a + S5000x3.size a ≤ S5000x45.size a
  inb_S5000x15_S5000x1_0_6 : ∀ a, (![0, 6] : Fin 2 → Nat) a + S5000x1.size a ≤ S5000x15.size a
  inb_S5000x45_S5000x3_0_21 : ∀ a, (![0, 21] : Fin 2 → Nat) a + S5000x3.size a ≤ S5000x45.size a
  inb_S5000x15_S5000x1_0_7 : ∀ a, (![0, 7] : Fin 2 → Nat) a + S5000x1.size a ≤ S5000x15.size a
  inb_S5000x45_S5000x3_0_24 : ∀ a, (![0, 24] : Fin 2 → Nat) a + S5000x3.size a ≤ S5000x45.size a
  inb_S5000x15_S5000x1_0_8 : ∀ a, (![0, 8] : Fin 2 → Nat) a + S5000x1.size a ≤ S5000x15.size a
  inb_S5000x45_S5000x3_0_27 : ∀ a, (![0, 27] : Fin 2 → Nat) a + S5000x3.size a ≤ S5000x45.size a
  inb_S5000x15_S5000x1_0_9 : ∀ a, (![0, 9] : Fin 2 → Nat) a + S5000x1.size a ≤ S5000x15.size a
  inb_S5000x45_S5000x3_0_30 : ∀ a, (![0, 30] : Fin 2 → Nat) a + S5000x3.size a ≤ S5000x45.size a
  inb_S5000x15_S5000x1_0_10 : ∀ a, (![0, 10] : Fin 2 → Nat) a + S5000x1.size a ≤ S5000x15.size a
  inb_S5000x45_S5000x3_0_33 : ∀ a, (![0, 33] : Fin 2 → Nat) a + S5000x3.size a ≤ S5000x45.size a
  inb_S5000x15_S5000x1_0_11 : ∀ a, (![0, 11] : Fin 2 → Nat) a + S5000x1.size a ≤ S5000x15.size a
  inb_S5000x45_S5000x3_0_36 : ∀ a, (![0, 36] : Fin 2 → Nat) a + S5000x3.size a ≤ S5000x45.size a
  inb_S5000x15_S5000x1_0_12 : ∀ a, (![0, 12] : Fin 2 → Nat) a + S5000x1.size a ≤ S5000x15.size a
  inb_S5000x45_S5000x3_0_39 : ∀ a, (![0, 39] : Fin 2 → Nat) a + S5000x3.size a ≤ S5000x45.size a
  inb_S5000x15_S5000x1_0_13 : ∀ a, (![0, 13] : Fin 2 → Nat) a + S5000x1.size a ≤ S5000x15.size a
  inb_S5000x45_S5000x3_0_42 : ∀ a, (![0, 42] : Fin 2 → Nat) a + S5000x3.size a ≤ S5000x45.size a
  inb_S5000x15_S5000x1_0_14 : ∀ a, (![0, 14] : Fin 2 → Nat) a + S5000x1.size a ≤ S5000x15.size a
  bcast_S500000x15_S500000x15x1_0_1 : S500000x15.BroadcastsInDim S500000x15x1 (![0, 1] : Fin 2 → Fin S500000x15x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x45.size a ≤ S500000x45.size a
  hwx0_0 : ∀ i : grid0.Coords, EltTy.bits .f32 = 32 ∨ (Rect.block (s := S500000x45) S5000x45.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x15.size a ≤ S500000x15.size a
  hwx0_1 : ∀ i : grid0.Coords, EltTy.bits .f32 = 32 ∨ (Rect.block (s := S500000x15) S5000x15.size (cc0_transform_1 i) (hinb0_1 i)).WholeWords (EltTy.packing .f32)

variable [Facts₀]

abbrev win0_0 : Pipeline.Window sig grid0 :=
  Pipeline.Window.ofSpec (Memref.whole main_v0) S5000x45.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S500000x15x3 : Shape := ⟨3, ![500000, 15, 3]⟩
abbrev S15 : Shape := ⟨1, ![15]⟩
abbrev S_ : Shape := ⟨0, ![]⟩
abbrev S15x1 : Shape := ⟨2, ![15, 1]⟩
abbrev S500000x15 : Shape := ⟨2, ![500000, 15]⟩
abbrev S500000x15x1 : Shape := ⟨3, ![500000, 15, 1]⟩

abbrev nBuf : Space → Nat
  | .hbm => 17
  | .vmem => 0
  | .smem => 0
  | _ => 0

abbrev bufTy : (tb : Table) → Fin (tcTables nBuf tb) → BufTy
  | .hbm, ⟨0, _⟩ => ⟨S500000x15x3, .f32⟩
  | .hbm, ⟨1, _⟩ => ⟨S15, .i32⟩
  | .hbm, ⟨2, _⟩ => ⟨S_, .i32⟩
  | .hbm, ⟨3, _⟩ => ⟨S15, .i32⟩
  | .hbm, ⟨4, _⟩ => ⟨S15, .i1⟩
  | .hbm, ⟨5, _⟩ => ⟨S_, .i32⟩
  | .hbm, ⟨6, _⟩ => ⟨S15, .i32⟩
  | .hbm, ⟨7, _⟩ => ⟨S15, .i32⟩
  | .hbm, ⟨8, _⟩ => ⟨S15, .i32⟩
  | .hbm, ⟨9, _⟩ => ⟨S15x1, .i32⟩
  | .hbm, ⟨10, _⟩ => ⟨S500000x15x3, .f32⟩
  | .hbm, ⟨11, _⟩ => ⟨S500000x15x3, .f32⟩
  | .hbm, ⟨12, _⟩ => ⟨S500000x15x3, .f32⟩
  | .hbm, ⟨13, _⟩ => ⟨S_, .f32⟩
  | .hbm, ⟨14, _⟩ => ⟨S500000x15, .f32⟩
  | .hbm, ⟨15, _⟩ => ⟨S500000x15, .f32⟩
  | .hbm, ⟨16, _⟩ => ⟨S500000x15x1, .f32⟩
  | _, _ => ⟨S500000x15x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S15 : S_.BroadcastsInDim S15 (![] : Fin 0 → Fin S15.rank)
  bcast_S15_S15x1_0 : S15.BroadcastsInDim S15x1 (![0] : Fin 1 → Fin S15x1.rank)
  reducesTo_S500000x15x3_S500000x15_d2 : S500000x15x3.ReducesTo [2] S500000x15
  h_S_ : 0 < S_.numel
  bcast_S500000x15_S500000x15x1_0_1 : S500000x15.BroadcastsInDim S500000x15x1 (![0, 1] : Fin 2 → Fin S500000x15x1.rank)
  gather_S500000x15x3_S15x1_S500000x15x3_02_1_n_n_1_1_50000013_wf : GatherDims.WF S500000x15x3 S15x1 S500000x15x3 [0, 2] [1] [] [1] [] 1 ![500000, 1, 3]

variable [Facts₀]

def gather_S500000x15x3_S15x1_S500000x15x3_02_1_n_n_1_1_50000013 : GatherDims S500000x15x3 S15x1 S500000x15x3 where
  offsetDims := [0, 2]
  collapsedSliceDims := [1]
  operandBatchingDims := []
  startIndicesBatchingDims := []
  startIndexMap := [1]
  indexVectorDim := 1
  sliceSizes := ![500000, 1, 3]
  wf := gather_S500000x15x3_S15x1_S500000x15x3_02_1_n_n_1_1_50000013_wf

class Facts : Prop extends Facts₀ where

variable [Facts]
-- ==== Proof.LimbSpec.lean ====
/-
  The limb lengths of a batch of fifteen-joint skeletons, as one function of the array of joint coordinates:
  entry (b, k) is the Euclidean distance between joint k and its parent joint in skeleton b, the square
  root of the sum over the three coordinates of the squared differences. Both programs compute it; this
  module states it once, over the array's literal shape, and names the parent table.
-/
import Idealize.ShloMosaic.PureOps.Ideal
import Idealize.ShloMosaic.PureOps.Ideal.Laws
import Idealize.ShloMosaic.Lib.ValueIdx

noncomputable section

namespace Limb

open Idealize.ShloMosaic Idealize.ShloMosaic.ValueIdx

/-- The parent of each of the fifteen joints (joint 0 is its own parent). -/
def par : Fin 15 → Fin 15 := ![0, 0, 1, 1, 1, 3, 4, 5, 6, 2, 2, 9, 10, 11, 12]

/-- The squared distance between joints k and p of skeleton b: the sum over the three coordinates of the
    squared differences. -/
def sqDist (x : (⟨3, ![500000, 15, 3]⟩ : Shape).Idx → EReal) (b : Fin 500000) (k p : Fin 15) : EReal :=
  ∑ d : Fin 3, (x (ix3 b k d) - x (ix3 b p d)) * (x (ix3 b k d) - x (ix3 b p d))

/-- The limb lengths: at (b, k) the distance between joint k and its parent in skeleton b. -/
def lengths (x : (⟨3, ![500000, 15, 3]⟩ : Shape).Idx → EReal) : (⟨2, ![500000, 15]⟩ : Shape).Idx → EReal :=
  fun j => Ideal.sqrt (sqDist x ⟨(j 0).val, idx2_lt0 j⟩ ⟨(j 1).val, idx2_lt1 j⟩ (par ⟨(j 1).val, idx2_lt1 j⟩))

theorem lengths_apply (x : (⟨3, ![500000, 15, 3]⟩ : Shape).Idx → EReal) (b : Fin 500000) (k : Fin 15) :
    lengths x (ix2 b k) = Ideal.sqrt (sqDist x b k (par k)) := rfl

end Limb

end
-- ==== Proof.KernelBlock.lean ====
/-
  What the kernel body leaves in its output block, as one function of its input block: the body stores
  fifteen columns, column k holding for each row the distance between the row's joint k (lanes 3k … 3k+2 of
  the input block) and its parent joint (lanes 3p … 3p+2), so the block it leaves is that distance at
  every (row, joint).
-/
import proofs.«140876_j53008486367482_1_alg».proof.Proof.Gen.KernelIdeal.Frame
import proofs.«140876_j53008486367482_1_alg».proof.Proof.LimbSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- One stored column: per row, the square root of the sum over the three lanes of the squared differences of
    two three-lane slices of the input block. -/
def limbCol (a b : FVec Ideal S5000x3 .f32) : FVec Ideal S5000x1 .f32 :=
  sqrt (shapeCast S5000x1 (multiReduction .add [1] S5000 (mulf (subf a b) (subf a b)) 0x00000000#32 reduces_S5000x3_S5000 (.inl rfl) rfl) shapeCasts_S5000_S5000x1)

/-- The column read at a row. -/
theorem limbCol_apply (a b : FVec Ideal S5000x3 .f32) (r : Fin 5000) (z : Fin 1) :
    limbCol a b (ix2 r z) = Ideal.sqrt (∑ d : Fin 3, (a (ix2 r d) - b (ix2 r d)) * (a (ix2 r d) - b (ix2 r d))) := by
  unfold limbCol
  show Ideal.sqrt (shapeCast S5000x1 _ _ (ix2 r z)) = _
  rw [shapeCast_apply _ _ (ix2 r z) (ix1 r) (by
    rw [Shape.rowMajor_val_one, Shape.rowMajor_val_two]
    have := z.isLt
    show r.val = r.val * 1 + z.val
    omega)]
  refine congrArg Ideal.sqrt ?_
  refine (Ideal.multiReduction_add_single (mulf (subf a b) (subf a b)) 0x00000000#32 reduces_S5000x3_S5000 _ _ (ix1 r)).trans ?_
  refine Finset.sum_congr rfl fun d _ => ?_
  have hl : reduces_S5000x3_S5000.lift (ix1 r) d = ix2 r d :=
    funext fun c => Fin.ext (match c with | ⟨0, _⟩ => rfl | ⟨1, _⟩ => rfl)
  rw [hl]
  rfl

/-- Lane 3k + d of a row holds coordinate d of joint k. -/
def lane (k : Fin 15) (d : Fin 3) : Fin 45 := ⟨3 * k.val + d.val, by have := k.isLt; have := d.isLt; omega⟩

/-- The output block as one function of the input block: at (row, joint) the distance between the joint and its parent. -/
def blockLengths (x0 : Vec Ideal S5000x45 .f32) : Vec Ideal S5000x15 .f32 := fun y =>
  Ideal.sqrt (∑ d : Fin 3,
    (x0 (ix2 ⟨(y 0).val, idx2_lt0 y⟩ (lane ⟨(y 1).val, idx2_lt1 y⟩ d)) - x0 (ix2 ⟨(y 0).val, idx2_lt0 y⟩ (lane (Limb.par ⟨(y 1).val, idx2_lt1 y⟩) d)))
    * (x0 (ix2 ⟨(y 0).val, idx2_lt0 y⟩ (lane ⟨(y 1).val, idx2_lt1 y⟩ d)) - x0 (ix2 ⟨(y 0).val, idx2_lt0 y⟩ (lane (Limb.par ⟨(y 1).val, idx2_lt1 y⟩) d))))

/-- The column stored at lane offset `ko` from the slices at lane offsets `oc` and `op` is column k of that function, when
    the offsets are joint k's own: k, 3k and three times its parent. -/
theorem piece (x0 : Vec Ideal S5000x45 .f32) (k : Fin 15) (ko oc op : Nat) (hko : ko = k.val) (hoc : oc = 3 * k.val) (hop : op = 3 * (Limb.par k).val)
    (inbc : ∀ a, (![0, oc] : Fin 2 → Nat) a + S5000x3.size a ≤ S5000x45.size a)
    (inbp : ∀ a, (![0, op] : Fin 2 → Nat) a + S5000x3.size a ≤ S5000x45.size a)
    (inbo : ∀ a, (![0, ko] : Fin 2 → Nat) a + S5000x1.size a ≤ S5000x15.size a)
    (z : (Rect.unit (s := S5000x15) ![0, ko] S5000x1.size inbo).shape.Idx) :
    limbCol (View.ld (Val := Elt Ideal) x0 (Rect.unit (s := S5000x45) ![0, oc] S5000x3.size inbc)) (View.ld (Val := Elt Ideal) x0 (Rect.unit (s := S5000x45) ![0, op] S5000x3.size inbp)) z
      = blockLengths x0 ((Rect.unit (s := S5000x15) ![0, ko] S5000x1.size inbo).emb z) := by
  subst hko hoc hop
  obtain ⟨r, z1, rfl⟩ : ∃ (r : Fin 5000) (z1 : Fin 1), z = ix2 r z1 := ⟨z 0, z 1, eq_ix2 z⟩
  refine (limbCol_apply _ _ r z1).trans ?_
  unfold blockLengths
  refine congrArg Ideal.sqrt (Finset.sum_congr rfl fun d _ => ?_)
  have hz : z1.val = 0 := by have := z1.isLt; omega
  have ec : (Rect.unit (s := S5000x45) ![0, 3 * k.val] S5000x3.size inbc).idx (ix2 r d)
      = ix2 ⟨(((Rect.unit (s := S5000x15) ![0, k.val] S5000x1.size inbo).emb (ix2 r z1)) 0).val, idx2_lt0 _⟩
          (lane ⟨(((Rect.unit (s := S5000x15) ![0, k.val] S5000x1.size inbo).emb (ix2 r z1)) 1).val, idx2_lt1 _⟩ d) := by
    funext a; refine Fin.ext ?_
    match a with
    | ⟨0, _⟩ => show 0 + 1 * r.val = 0 + 1 * r.val; rfl
    | ⟨1, _⟩ => show 3 * k.val + 1 * d.val = 3 * (k.val + 1 * z1.val) + d.val; omega
  have hk1 : (⟨(((Rect.unit (s := S5000x15) ![0, k.val] S5000x1.size inbo).emb (ix2 r z1)) 1).val, idx2_lt1 _⟩ : Fin 15) = k :=
    Fin.ext (by show k.val + 1 * z1.val = k.val; omega)
  have ep : (Rect.unit (s := S5000x45) ![0, 3 * (Limb.par k).val] S5000x3.size inbp).idx (ix2 r d)
      = ix2 ⟨(((Rect.unit (s := S5000x15) ![0, k.val] S5000x1.size inbo).emb (ix2 r z1)) 0).val, idx2_lt0 _⟩
          (lane (Limb.par ⟨(((Rect.unit (s := S5000x15) ![0, k.val] S5000x1.size inbo).emb (ix2 r z1)) 1).val, idx2_lt1 _⟩) d) := by
    rw [hk1]
    funext a; refine Fin.ext ?_
    match a with
    | ⟨0, _⟩ => show 0 + 1 * r.val = 0 + 1 * r.val; rfl
    | ⟨1, _⟩ => show 3 * (Limb.par k).val + 1 * d.val = 3 * (Limb.par k).val + d.val; omega
  show (x0 ((Rect.unit (s := S5000x45) ![0, 3 * k.val] S5000x3.size inbc).idx (ix2 r d))
      - x0 ((Rect.unit (s := S5000x45) ![0, 3 * (Limb.par k).val] S5000x3.size inbp).idx (ix2 r d)))
    * (x0 ((Rect.unit (s := S5000x45) ![0, 3 * k.val] S5000x3.size inbc).idx (ix2 r d))
      - x0 ((Rect.unit (s := S5000x45) ![0, 3 * (Limb.par k).val] S5000x3.size inbp).idx (ix2 r d))) = _
  rw [ec, ep]

/-- The shape casts in the body's stored values are casts of a shape to itself. -/
theorem pay1_eq (a b : Vec Ideal S5000x3 .f32) : k0_pay1 (k0_pay18 a) b = limbCol a b := by
  simp only [k0_pay1, k0_pay18, shapeCast_self, limbCol]
theorem pay2_eq (a b : Vec Ideal S5000x3 .f32) : k0_pay2 a b = limbCol a b := by
  simp only [k0_pay2, shapeCast_self, limbCol]
theorem pay3_eq (a b : Vec Ideal S5000x3 .f32) : k0_pay3 a b = limbCol a b := by
  simp only [k0_pay3, shapeCast_self, limbCol]
theorem pay4_eq (a b : Vec Ideal S5000x3 .f32) : k0_pay4 a b = limbCol a b := by
  simp only [k0_pay4, shapeCast_self, limbCol]
theorem pay5_eq (a b : Vec Ideal S5000x3 .f32) : k0_pay5 a b = limbCol a b := by
  simp only [k0_pay5, shapeCast_self, limbCol]
theorem pay7_eq (a b : Vec Ideal S5000x3 .f32) : k0_pay7 (k0_pay6 a) b = limbCol a b := by
  simp only [k0_pay7, k0_pay6, shapeCast_self, limbCol]
theorem pay8_eq (a b : Vec Ideal S5000x3 .f32) : k0_pay8 a b = limbCol a b := by
  simp only [k0_pay8, shapeCast_self, limbCol]
theorem pay9_eq (a b : Vec Ideal S5000x3 .f32) : k0_pay9 a b = limbCol a b := by
  simp only [k0_pay9, shapeCast_self, limbCol]
theorem pay11_eq (a b : Vec Ideal S5000x3 .f32) : k0_pay11 (k0_pay10 a b) = limbCol a b := by
  simp only [k0_pay11, k0_pay10, shapeCast_self, limbCol]
theorem pay12_eq (a b : Vec Ideal S5000x3 .f32) : k0_pay12 a b = limbCol a b := by
  simp only [k0_pay12, shapeCast_self, limbCol]
theorem pay13_eq (a b : Vec Ideal S5000x3 .f32) : k0_pay13 a b = limbCol a b := by
  simp only [k0_pay13, shapeCast_self, limbCol]
theorem pay14_eq (a b : Vec Ideal S5000x3 .f32) : k0_pay14 a b = limbCol a b := by
  simp only [k0_pay14, shapeCast_self, limbCol]
theorem pay15_eq (a b : Vec Ideal S5000x3 .f32) : k0_pay15 a b = limbCol a b := by
  simp only [k0_pay15, shapeCast_self, limbCol]
theorem pay16_eq (a b : Vec Ideal S5000x3 .f32) : k0_pay16 a b = limbCol a b := by
  simp only [k0_pay16, shapeCast_self, limbCol]
theorem pay17_eq (a b : Vec Ideal S5000x3 .f32) : k0_pay17 a b = limbCol a b := by
  simp only [k0_pay17, shapeCast_self, limbCol]

/-- THE OUTPUT BLOCK: the fifteen stored columns tile the block, and each is its column of the one function. -/
theorem out_eq (x0 : Vec Ideal S5000x45 .f32) : out0_1 (F := Ideal) x0 = blockLengths x0 := by
  funext y
  unfold out0_1
  refine View.canon_apply_of_pieces (blockLengths x0) _ ?_ y (cover0_1 _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl
  · intro z; rw [pay2_eq]; exact piece x0 (14 : Fin 15) 14 42 36 rfl rfl rfl Facts₀.inb_S5000x45_S5000x3_0_42 Facts₀.inb_S5000x45_S5000x3_0_36 Facts₀.inb_S5000x15_S5000x1_0_14 z
  · intro z; rw [pay1_eq]; exact piece x0 (13 : Fin 15) 13 39 33 rfl rfl rfl Facts₀.inb_S5000x45_S5000x3_0_39 Facts₀.inb_S5000x45_S5000x3_0_33 Facts₀.inb_S5000x15_S5000x1_0_13 z
  · intro z; rw [pay17_eq]; exact piece x0 (12 : Fin 15) 12 36 30 rfl rfl rfl Facts₀.inb_S5000x45_S5000x3_0_36 Facts₀.inb_S5000x45_S5000x3_0_30 Facts₀.inb_S5000x15_S5000x1_0_12 z
  · intro z; rw [pay16_eq]; exact piece x0 (11 : Fin 15) 11 33 27 rfl rfl rfl Facts₀.inb_S5000x45_S5000x3_0_33 Facts₀.inb_S5000x45_S5000x3_0_27 Facts₀.inb_S5000x15_S5000x1_0_11 z
  · intro z; rw [pay15_eq]; exact piece x0 (10 : Fin 15) 10 30 6 rfl rfl rfl Facts₀.inb_S5000x45_S5000x3_0_30 Facts₀.inb_S5000x45_S5000x3_0_6 Facts₀.inb_S5000x15_S5000x1_0_10 z
  · intro z; rw [pay14_eq]; exact piece x0 (9 : Fin 15) 9 27 6 rfl rfl rfl Facts₀.inb_S5000x45_S5000x3_0_27 Facts₀.inb_S5000x45_S5000x3_0_6 Facts₀.inb_S5000x15_S5000x1_0_9 z
  · intro z; rw [pay13_eq]; exact piece x0 (8 : Fin 15) 8 24 18 rfl rfl rfl Facts₀.inb_S5000x45_S5000x3_0_24 Facts₀.inb_S5000x45_S5000x3_0_18 Facts₀.inb_S5000x15_S5000x1_0_8 z
  · intro z; rw [pay12_eq]; exact piece x0 (7 : Fin 15) 7 21 15 rfl rfl rfl Facts₀.inb_S5000x45_S5000x3_0_21 Facts₀.inb_S5000x45_S5000x3_0_15 Facts₀.inb_S5000x15_S5000x1_0_7 z
  · intro z; rw [pay11_eq]; exact piece x0 (6 : Fin 15) 6 18 12 rfl rfl rfl Facts₀.inb_S5000x45_S5000x3_0_18 Facts₀.inb_S5000x45_S5000x3_0_12 Facts₀.inb_S5000x15_S5000x1_0_6 z
  · intro z; rw [pay9_eq]; exact piece x0 (5 : Fin 15) 5 15 9 rfl rfl rfl Facts₀.inb_S5000x45_S5000x3_0_15 Facts₀.inb_S5000x45_S5000x3_0_9 Facts₀.inb_S5000x15_S5000x1_0_5 z
  · intro z; rw [pay8_eq]; exact piece x0 (4 : Fin 15) 4 12 3 rfl rfl rfl Facts₀.inb_S5000x45_S5000x3_0_12 Facts₀.inb_S5000x45_S5000x3_0_3 Facts₀.inb_S5000x15_S5000x1_0_4 z
  · intro z; rw [pay7_eq]; exact piece x0 (3 : Fin 15) 3 9 3 rfl rfl rfl Facts₀.inb_S5000x45_S5000x3_0_9 Facts₀.inb_S5000x45_S5000x3_0_3 Facts₀.inb_S5000x15_S5000x1_0_3 z
  · intro z; rw [pay5_eq]; exact piece x0 (2 : Fin 15) 2 6 3 rfl rfl rfl Facts₀.inb_S5000x45_S5000x3_0_6 Facts₀.inb_S5000x45_S5000x3_0_3 Facts₀.inb_S5000x15_S5000x1_0_2 z
  · intro z; rw [pay4_eq]; exact piece x0 (1 : Fin 15) 1 3 0 rfl rfl rfl Facts₀.inb_S5000x45_S5000x3_0_3 Facts₀.inb_S5000x45_S5000x3_0_0 Facts₀.inb_S5000x15_S5000x1_0_1 z
  · intro z; rw [pay3_eq]; exact piece x0 (0 : Fin 15) 0 0 0 rfl rfl rfl Facts₀.inb_S5000x45_S5000x3_0_0 Facts₀.inb_S5000x45_S5000x3_0_0 Facts₀.inb_S5000x15_S5000x1_0_0 z

end Cert.KernelIdeal.Hand

end
-- ==== Proof.KernelValue.lean ====
/-
  The kernel's run, read: grid point t writes back rows 5000t … 5000t + 4999 of the limb lengths of the
  argument array (the input block is those rows of the argument viewed with its last two axes merged, lane
  3k + d holding coordinate d of joint k); the hundred blocks cover the result array, which therefore ends
  holding the limb lengths, and the host line after the call gives them a trailing unit axis.
-/
import proofs.«140876_j53008486367482_1_alg».proof.Proof.KernelBlock

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument array on core c. -/
abbrev xarr (c : Dev nD) : Vec Ideal S500000x15x3 .f32 := m ((c : Thread nD τ).loc main_arg0)

/-- Both windows' block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The region finds the argument with its last two axes merged. -/
theorem V_v0 (c : Dev nD) : (V m c main_v0 : S500000x45.Idx → EReal)
    = shapeCast S500000x45 (xarr m c) Facts₀.shapeCasts_S500000x15x3_S500000x45 := by
  show StableHlo.after hostOps0 (fun b => m (c, b)) (Proc.devRef .tc main_v0) = _
  after_results
  rfl

/-- The input block at point t. -/
abbrev xblk (c : Dev nD) (t : Fin cfg0.N) : Vec Ideal S5000x45 .f32 := iblk m c 0 t

/-- The input block at point t, at (row r, lane q), is row 5000t + r of the merged view at lane q. -/
theorem iblk_apply (c : Dev nD) (t : Fin cfg0.N) (r : Fin 5000) (q : Fin 45) (R : Fin 500000) (hR : R.val = 5000 * t.val + r.val) :
    xblk m c t (ix2 r q) = (V m c main_v0 : S500000x45.Idx → EReal) (ix2 R q) := by
  obtain ⟨e0, e1, -, -⟩ := idx_facts t
  unfold xblk iblk
  rw [View.read_apply]
  show V m c main_v0 _ = V m c main_v0 _
  congr 1
  funext a
  apply Fin.ext
  match a with
  | ⟨0, _⟩ => show win0_0.index t (0 : Fin 2) * 5000 + 1 * r.val = R.val; rw [e0, hR]; omega
  | ⟨1, _⟩ => show win0_0.index t (1 : Fin 2) * 45 + 1 * q.val = q.val; rw [e1]; omega

/-- … which is coordinate d of joint k of skeleton 5000t + r when the lane is 3k + d. -/
theorem iblk_lane (c : Dev nD) (t : Fin cfg0.N) (r : Fin 5000) (k : Fin 15) (d : Fin 3) (R : Fin 500000) (hR : R.val = 5000 * t.val + r.val) :
    xblk m c t (ix2 r (lane k d)) = xarr m c (ix3 R k d) := by
  rw [iblk_apply m c t r (lane k d) R hR, V_v0]
  refine shapeCast_apply _ _ (ix2 R (lane k d)) (ix3 R k d) ?_
  rw [Shape.rowMajor_val_three, Shape.rowMajor_val_two]
  show (R.val * 15 + k.val) * 3 + d.val = R.val * 45 + (3 * k.val + d.val)
  omega

/-- WHAT POINT t WRITES BACK is block t of the limb lengths of the argument array. -/
theorem flushed_eq (c : Dev nD) (t : Fin cfg0.N) :
    (dats m 0 c).flushed 1 t = ((cfg0.win 1).blk t).view.read (Elt Ideal) (Limb.lengths (xarr m c)) := by
  show (cfg0.win 1).cut (grid0.coords t) ((dats m 0 c).after 1 t) = _
  rw [after0_1, out_eq]
  obtain ⟨-, -, e2, e3⟩ := idx_facts t
  have hN : cfg0.N = 100 := N_0
  have ht : t.val < 100 := by have := t.isLt; omega
  funext y
  obtain ⟨r, k, rfl⟩ : ∃ (r : Fin 5000) (k : Fin 15), y = ix2 r k := ⟨y 0, y 1, eq_ix2 y⟩
  show blockLengths (xblk m c t) (ix2 r k) = Limb.lengths (xarr m c) (((cfg0.win 1).blk t).view.emb (ix2 r k))
  have hRlt : 5000 * t.val + r.val < 500000 := by have := r.isLt; omega
  have hJ : ((cfg0.win 1).blk t).view.emb (ix2 r k) = ix2 (⟨5000 * t.val + r.val, hRlt⟩ : Fin 500000) k := by
    funext a; apply Fin.ext
    match a with
    | ⟨0, _⟩ => show win0_1.index t (0 : Fin 2) * 5000 + 1 * r.val = 5000 * t.val + r.val; rw [e2]; omega
    | ⟨1, _⟩ => show win0_1.index t (1 : Fin 2) * 15 + 1 * k.val = k.val; rw [e3]; omega
  rw [hJ, Limb.lengths_apply]
  unfold blockLengths Limb.sqDist
  refine congrArg Ideal.sqrt (Finset.sum_congr rfl fun d _ => ?_)
  show (xblk m c t (ix2 r (lane k d)) - xblk m c t (ix2 r (lane (Limb.par k) d)))
      * (xblk m c t (ix2 r (lane k d)) - xblk m c t (ix2 r (lane (Limb.par k) d))) = _
  rw [iblk_lane m c t r k d ⟨5000 * t.val + r.val, hRlt⟩ rfl, iblk_lane m c t r (Limb.par k) d ⟨5000 * t.val + r.val, hRlt⟩ rfl]

/-- An index of the result array is in point t's block iff each coordinate is in the block's range on its axis. -/
theorem mem_blk (t : Fin cfg0.N) (i : S500000x15.Idx) :
    i ∈ ((cfg0.win 1).blk t).view.set ↔ ∀ a : Fin 2, win0_1.index t a * S5000x15.size a ≤ (i a).val ∧ (i a).val < win0_1.index t a * S5000x15.size a + S5000x15.size a := by
  show i ∈ ((View.whole main_v1).slice (win0_1.rect t)).set ↔ _
  rw [View.set_slice_whole, Rect.mem_set_unit]
  exact Iff.rfl

/-- Row R of the result array is in the block of point R / 5000. -/
theorem cover (i : S500000x15.Idx) : ∃ t : Fin cfg0.N, (cfg0.win 1).flush t = true ∧ i ∈ ((cfg0.win 1).blk t).view.set := by
  have hN : cfg0.N = 100 := N_0
  have h0 : (i 0).val < 500000 := (i 0).isLt
  have h1 : (i 1).val < 15 := (i 1).isLt
  have ht : (i 0).val / 5000 < cfg0.N := by rw [hN]; omega
  obtain ⟨-, -, e2, e3⟩ := idx_facts ⟨(i 0).val / 5000, ht⟩
  refine ⟨⟨(i 0).val / 5000, ht⟩, flush0_1 _, ?_⟩
  rw [mem_blk]
  intro a
  match a with
  | ⟨0, _⟩ =>
    show win0_1.index ⟨(i 0).val / 5000, ht⟩ (0 : Fin 2) * 5000 ≤ (i 0).val ∧ (i 0).val < win0_1.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win0_1.index ⟨(i 0).val / 5000, ht⟩ (1 : Fin 2) * 15 ≤ (i 1).val ∧ (i 1).val < win0_1.index ⟨(i 0).val / 5000, ht⟩ (1 : Fin 2) * 15 + 15
    rw [e3]; omega

/-- THE RESULT ARRAY OF THE CALL ends holding the limb lengths of the argument array. -/
theorem final (c : Dev nD) : (dats m 0 c).arrAt 1 cfg0.N = Limb.lengths (xarr m c) :=
  (dats m 0 c).arrAt_eq_of_cover 1 (Limb.lengths (xarr m c)) (fun t _ => flushed_eq m c t) fun i => cover i

/-- The host line after the call reads the call's result array and adds a trailing unit axis. -/
theorem tail_eq (c : Dev nD) : Pipeline.afterTail₀ cfgs (dats m) 0 (V0 m) [hostOps1] c main_v2
    = broadcastInDim S500000x15x1 ![0, 1] Facts₀.bcast_S500000x15_S500000x15x1_0_1 (Limb.lengths (xarr m c)) := by
  unfold Pipeline.afterTail₀
  show StableHlo.after hostOps1 _ (Proc.devRef .tc main_v2) = _
  after_results
  have e := (Pipeline.withArrays_arr spec0 launch0.win.arr_inj c (V0 m c) (fun w => (dats m 0 c).arrAt w cfg0.N) 1).trans (final m c)
  show broadcastInDim S500000x15x1 ![0, 1] Facts₀.bcast_S500000x15_S500000x15x1_0_1
    (Pipeline.withArrays spec0 c (V0 m c) (fun w => (dats m 0 c).arrAt w cfg0.N) (Proc.devRef .tc (Pipeline.arrRef spec0 1))) = _
  rw [e]

/-- THE RUN, READ: every weakly fair execution of the kernel's program terminates with the result at the limb
    lengths of the argument array under a trailing unit axis, and the argument unchanged. -/
theorem run : θ_run defs (onTc (τ := τ) (main (F := Ideal))) ⟨m, fun _ => 0, ρ⟩ fun r => ∀ c : Dev nD,
      r.2.mem ((c.tc : Thread nD τ).loc main_v2)
        = broadcastInDim S500000x15x1 ![0, 1] Facts₀.bcast_S500000x15_S500000x15x1_0_1 (Limb.lengths (xarr m c))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.Hand

end
-- ==== Proof.RefRun.lean ====
/-
  The reference program's @main as the list of its seventeen host operations, and its run read back: every
  weakly fair execution terminates with the result array at the operations' composed term of the argument
  array, the argument unchanged. The term: the joints' coordinates minus their parents' (a gather of the
  middle axis at the parent table), squared, summed over the three coordinates, square-rooted, and given
  a trailing unit axis.
-/
import proofs.«140876_j53008486367482_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ nullary main_c (fun i => lit0 (S15.rowMajor i)),
    nullary main_c_0 (constantI S_ 32 0#32),
    unary main_c_0 main_v0 (broadcastInDim S15 ![] bcast_S_S15 : (⟨S_, .i32⟩ : BufTy).Contents (Elt F) → (⟨S15, .i32⟩ : BufTy).Contents (Elt F)),
    binary main_c main_v0 main_v1 (cmpi .slt : (⟨S15, .i32⟩ : BufTy).Contents (Elt F) → (⟨S15, .i32⟩ : BufTy).Contents (Elt F) → (⟨S15, .i1⟩ : BufTy).Contents (Elt F)),
    nullary main_c_1 (constantI S_ 32 15#32),
    unary main_c_1 main_v2 (broadcastInDim S15 ![] bcast_S_S15 : (⟨S_, .i32⟩ : BufTy).Contents (Elt F) → (⟨S15, .i32⟩ : BufTy).Contents (Elt F)),
    binary main_c main_v2 main_v3 (addi : (⟨S15, .i32⟩ : BufTy).Contents (Elt F) → (⟨S15, .i32⟩ : BufTy).Contents (Elt F) → (⟨S15, .i32⟩ : BufTy).Contents (Elt F)),
    ternary main_v1 main_v3 main_c main_v4 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v4 main_v5 (broadcastInDim S15x1 ![0] bcast_S15_S15x1_0 : (⟨S15, .i32⟩ : BufTy).Contents (Elt F) → (⟨S15x1, .i32⟩ : BufTy).Contents (Elt F)),
    binary main_arg0 main_v5 main_v6 ((fun x i => Host.gather gather_S500000x15x3_S15x1_S500000x15x3_02_1_n_n_1_1_50000013 x i) : (⟨S500000x15x3, .f32⟩ : BufTy).Contents (Elt F) → (⟨S15x1, .i32⟩ : BufTy).Contents (Elt F) → (⟨S500000x15x3, .f32⟩ : BufTy).Contents (Elt F)),
    binary main_arg0 main_v6 main_v7 (subf : (⟨S500000x15x3, .f32⟩ : BufTy).Contents (Elt F) → (⟨S500000x15x3, .f32⟩ : BufTy).Contents (Elt F) → (⟨S500000x15x3, .f32⟩ : BufTy).Contents (Elt F)),
    binary main_v7 main_v7 main_v8 (mulf : (⟨S500000x15x3, .f32⟩ : BufTy).Contents (Elt F) → (⟨S500000x15x3, .f32⟩ : BufTy).Contents (Elt F) → (⟨S500000x15x3, .f32⟩ : BufTy).Contents (Elt F)),
    nullary main_cst (constant S_ .f32 0x00000000#32),
    binary main_v8 main_cst main_v9 ((fun x v => Host.reduceAdd x v reducesTo_S500000x15x3_S500000x15_d2 h_S_) : (⟨S500000x15x3, .f32⟩ : BufTy).Contents (Elt F) → (⟨S_, .f32⟩ : BufTy).Contents (Elt F) → (⟨S500000x15, .f32⟩ : BufTy).Contents (Elt F)),
    unary main_v9 main_v10 (Host.sqrt : (⟨S500000x15, .f32⟩ : BufTy).Contents (Elt F) → (⟨S500000x15, .f32⟩ : BufTy).Contents (Elt F)),
    unary main_v10 main_v11 (broadcastInDim S500000x15x1 ![0, 1] bcast_S500000x15_S500000x15x1_0_1 : (⟨S500000x15, .f32⟩ : BufTy).Contents (Elt F) → (⟨S500000x15x1, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., binary_bufs_sub .., unary_bufs_sub .., unary_bufs_sub ..⟩

/-- The parent table as the program computes it: the literal table, with a negative entry wrapped by the
    axis length (none is negative), as a column of index words. -/
def parentWords : IVec S15x1 32 :=
  broadcastInDim S15x1 ![0] bcast_S15_S15x1_0
    (select (cmpi .slt (fun i => lit0 (S15.rowMajor i)) (broadcastInDim S15 ![] bcast_S_S15 (constantI S_ 32 0#32)))
      (addi (fun i => lit0 (S15.rowMajor i)) (broadcastInDim S15 ![] bcast_S_S15 (constantI S_ 32 15#32)))
      (fun i => lit0 (S15.rowMajor i)))

/-- The limb lengths before the trailing unit axis is added, as the program computes them from the argument array. -/
def lengths (x : FVec F S500000x15x3 .f32) : FVec F S500000x15 .f32 :=
  Host.sqrt (Host.reduceAdd
    (mulf (subf x (Host.gather gather_S500000x15x3_S15x1_S500000x15x3_02_1_n_n_1_1_50000013 x parentWords))
      (subf x (Host.gather gather_S500000x15x3_S15x1_S500000x15x3_02_1_n_n_1_1_50000013 x parentWords)))
    (constant S_ .f32 0x00000000#32) reducesTo_S500000x15x3_S500000x15_d2 h_S_)

/-- On every device, for any float values, from any memory with zero counters: every weakly fair execution of
    @main terminates with the result at the limb lengths of the argument array under a trailing unit axis, and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = broadcastInDim S500000x15x1 ![0, 1] bcast_S500000x15_S500000x15x1_0_1 (lengths (m ((c.tc : Thread nD τ).loc main_arg0)))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

end Cert.ReferenceIdeal.Hand

end
-- ==== Proof.RefValue.lean ====
/-
  The reference's limb lengths are the specification's. Its gather along the joint axis at the parent table
  reads, at joint k, the coordinates of k's parent (the table's words are in range, so neither the
  wrap of negative entries nor the gather's clamp changes them); its sum over the last axis from zero is
  the sum over the three coordinates.
-/
import proofs.«140876_j53008486367482_1_alg».proof.Proof.RefRun
import proofs.«140876_j53008486367482_1_alg».proof.Proof.LimbSpec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- The table's words, wrapped and clamped as the gather reads them, name each joint's parent. -/
theorem parentWords_apply : ∀ k : Fin 15, min ((parentWords (ix2 k (0 : Fin 1))).toInt.toNat) 14 = (Limb.par k).val := by
  decide +kernel

abbrev GD := gather_S500000x15x3_S15x1_S500000x15x3_02_1_n_n_1_1_50000013

theorem gather_apply {α : Type} (x : S500000x15x3.Idx → α) (idx : IVec S15x1 32) (b : Fin 500000) (k : Fin 15) (d : Fin 3) :
    Host.gather GD x idx (ix3 b k d) = x (ix3 b ⟨min (idx (ix2 k (0 : Fin 1))).toInt.toNat 14, by omega⟩ d) := by
  unfold Host.gather
  congr 1
  funext a
  refine Fin.ext ?_
  show GD.start (ix3 b k d) idx a + GD.batchCoord (ix3 b k d) a + GD.offCoord (ix3 b k d) a = _
  rw [GatherDims.batchCoord_eq_zero _ _ _ List.not_mem_nil, Nat.add_zero]
  match a with
  | ⟨0, _⟩ =>
    have hs : GD.start (ix3 b k d) idx (0 : Fin 3) = 0 := by
      unfold GatherDims.start; rw [dif_neg (by decide)]
    have ho : GD.offCoord (ix3 b k d) (0 : Fin 3) = b.val := by
      unfold GatherDims.offCoord; rw [dif_pos (by decide)]; rfl
    show GD.start (ix3 b k d) idx (0 : Fin 3) + GD.offCoord (ix3 b k d) (0 : Fin 3) = b.val
    rw [hs, ho, Nat.zero_add]
  | ⟨1, _⟩ =>
    have ho : GD.offCoord (ix3 b k d) (1 : Fin 3) = 0 := GatherDims.offCoord_eq_zero _ _ _ (by decide)
    have hm : (1 : Fin 3) ∈ GD.startIndexMap := by decide
    have hsi : GD.siIdx (ix3 b k d) ⟨List.idxOf (1 : Fin 3) GD.startIndexMap, List.idxOf_lt_length_iff.2 hm⟩ = ix2 k (0 : Fin 1) := by
      funext c; refine Fin.ext ?_
      match c with
      | ⟨0, _⟩ => rfl
      | ⟨1, _⟩ => rfl
    have hs : GD.start (ix3 b k d) idx (1 : Fin 3) = min (idx (ix2 k (0 : Fin 1))).toInt.toNat 14 := by
      unfold GatherDims.start; rw [dif_pos hm, hsi]; rfl
    show GD.start (ix3 b k d) idx (1 : Fin 3) + GD.offCoord (ix3 b k d) (1 : Fin 3) = min (idx (ix2 k (0 : Fin 1))).toInt.toNat 14
    rw [hs, ho, Nat.add_zero]
  | ⟨2, _⟩ =>
    have hs : GD.start (ix3 b k d) idx (2 : Fin 3) = 0 := by
      unfold GatherDims.start; rw [dif_neg (by decide)]
    have ho : GD.offCoord (ix3 b k d) (2 : Fin 3) = d.val := by
      unfold GatherDims.offCoord; rw [dif_pos (by decide)]; rfl
    show GD.start (ix3 b k d) idx (2 : Fin 3) + GD.offCoord (ix3 b k d) (2 : Fin 3) = d.val
    rw [hs, ho, Nat.zero_add]

theorem hRed : S500000x15x3.Reduces [2] S500000x15 := by decide

/-- The reference's limb lengths are the specification's: its gather at the parent table reads joint k's parent, its
    sum over the last axis is the sum over the three coordinates from zero. -/
theorem lengths_eq (x : FVec Ideal S500000x15x3 .f32) : lengths (F := Ideal) x = Limb.lengths x := by
  funext j
  obtain ⟨b, k, rfl⟩ : ∃ (b : Fin 500000) (k : Fin 15), j = ix2 b k := ⟨j 0, j 1, eq_ix2 j⟩
  rw [Limb.lengths_apply]
  unfold lengths Host.sqrt Host.reduceAdd
  simp only [Ideal.hostUnary_sqrt_def, Ideal.hostReduceAdd_def]
  refine congrArg Ideal.sqrt ?_
  refine (Ideal.hostReduceAdd_single reducesTo_S500000x15x3_S500000x15_d2 hRed _ _ (ix2 b k)).trans ?_
  show Ideal.ofBits .f32 0x00000000#32 + ∑ d : Fin 3, _ = _
  rw [Ideal.ofBits_zero_f32, zero_add]
  unfold Limb.sqDist
  refine Finset.sum_congr rfl fun d _ => ?_
  have hl : hRed.lift (ix2 b k) d = ix3 b k d :=
    funext fun c => Fin.ext (match c with | ⟨0, _⟩ => rfl | ⟨1, _⟩ => rfl | ⟨2, _⟩ => rfl)
  rw [hl]
  show (x (ix3 b k d) - Host.gather GD x parentWords (ix3 b k d)) * (x (ix3 b k d) - Host.gather GD x parentWords (ix3 b k d)) = _
  rw [gather_apply]
  have hp : ∀ h, (⟨min (parentWords (ix2 k (0 : Fin 1))).toInt.toNat 14, h⟩ : Fin 15) = Limb.par k :=
    fun h => Fin.ext (parentWords_apply k)
  rw [hp]

end Cert.ReferenceIdeal.Hand

end
-- ==== Proof.lean ====
/-
  The limb lengths of a batch of fifteen-joint skeletons: entry (b, k) of the result is the Euclidean distance
  between joint k and its parent joint in skeleton b. The kernel views each skeleton's 15 × 3 coordinates as 45
  lanes, walks the batch in a hundred blocks of 5000 rows, and stores per block fifteen columns, column k the
  square root of the sum over three lanes of the squared differences of the lane slices of joint k and of its
  parent; the reference gathers the parents' coordinates along the joint axis, subtracts, squares, sums the
  last axis and takes the square root. Over the extended reals both are the same function of the argument
  array (Proof/LimbSpec.lean): the kernel's blocks are rows of it and cover the result (Proof/KernelBlock.lean,
  Proof/KernelValue.lean), the reference's gather reads the parent table and its sum is the three-term sum
  (Proof/RefRun.lean, Proof/RefValue.lean), and both programs end by giving it a trailing unit axis. No
  finiteness is used: the two sides are equal term by term.
-/
import proofs.«140876_j53008486367482_1_alg».proof.Defs
import proofs.«140876_j53008486367482_1_alg».proof.Proof.Gen.Kernel
import proofs.«140876_j53008486367482_1_alg».proof.Proof.Gen.Kernel.Skeleton
import proofs.«140876_j53008486367482_1_alg».proof.Proof.Gen.Kernel.Launch
import proofs.«140876_j53008486367482_1_alg».proof.Proof.Gen.Kernel.Points
import proofs.«140876_j53008486367482_1_alg».proof.Proof.Gen.Kernel.Frame
import proofs.«140876_j53008486367482_1_alg».proof.Proof.Gen.KernelIdeal
import proofs.«140876_j53008486367482_1_alg».proof.Proof.Gen.KernelIdeal.Skeleton
import proofs.«140876_j53008486367482_1_alg».proof.Proof.Gen.KernelIdeal.Launch
import proofs.«140876_j53008486367482_1_alg».proof.Proof.Gen.KernelIdeal.Points
import proofs.«140876_j53008486367482_1_alg».proof.Proof.Gen.KernelIdeal.Frame
import proofs.«140876_j53008486367482_1_alg».proof.Proof.Gen.ReferenceIdeal
import proofs.«140876_j53008486367482_1_alg».proof.Proof.Gen.Pre_finite_inputs
import proofs.«140876_j53008486367482_1_alg».proof.Proof.KernelValue
import proofs.«140876_j53008486367482_1_alg».proof.Proof.RefValue
import Idealize.ShloMosaic.Adequacy
import Idealize.ShloMosaic.Init

noncomputable section

namespace Cert.Proof

open Idealize.ShloMosaic Idealize.ShloMosaic.TcCoe Idealize.SL.Sem

/-- The three programs run, and leave their argument as it was: the kernels' by their launch-and-body frames, the
    reference's by its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Hand.run (F := Ideal) m ρ)

/-- Over the extended reals both programs end with the limb lengths of the (agreeing) argument arrays under a
    trailing unit axis. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Hand.lengths_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
